-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S2x1600000 : Shape := ⟨2, ![2, 1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x128 .f32) (main_arg1 : FVec F S128x128 .f32) (main_arg2 : FVec F S128 .f32) (main_arg3 : FVec F S128x64 .f32) (main_arg4 : FVec F S64 .f32) (main_arg5 : IVec S2x1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg3
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg4 main_v13 main_v16
-- ==== Kernel.lean ====
abbrev S100000x128 : Shape := ⟨2, ![100000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S2x1600000 : Shape := ⟨2, ![2, 1600000]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S5000x128 : Shape := ⟨2, ![5000, 128]⟩
abbrev S1700000x128 : Shape := ⟨2, ![1700000, 128]⟩
abbrev S1x128 : Shape := ⟨2, ![1, 128]⟩
abbrev S100000x64 : Shape := ⟨2, ![100000, 64]⟩
abbrev S5000x64 : Shape := ⟨2, ![5000, 64]⟩
abbrev S1700000x64 : Shape := ⟨2, ![1700000, 64]⟩
abbrev S1x64 : Shape := ⟨2, ![1, 64]⟩

abbrev nBuf : Space → Nat
  | .hbm => 80
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S128x64, .f32⟩
  | .hbm, ⟨4, _⟩ => ⟨S64, .f32⟩
  | .hbm, ⟨5, _⟩ => ⟨S2x1600000, .i32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S100000, .f32⟩
  | .hbm, ⟨23, _⟩ => ⟨S_, .i32⟩
  | .hbm, ⟨24, _⟩ => ⟨S1700000, .i32⟩
  | .hbm, ⟨25, _⟩ => ⟨S1700000, .i1⟩
  | .hbm, ⟨26, _⟩ => ⟨S_, .i32⟩
  | .hbm, ⟨27, _⟩ => ⟨S1700000, .i32⟩
  | .hbm, ⟨28, _⟩ => ⟨S1700000, .i32⟩
  | .hbm, ⟨29, _⟩ => ⟨S1700000, .i32⟩
  | .hbm, ⟨30, _⟩ => ⟨S1700000x1, .i32⟩
  | .hbm, ⟨31, _⟩ => ⟨S1700000, .f32⟩
  | .hbm, ⟨32, _⟩ => ⟨S_, .i32⟩
  | .hbm, ⟨33, _⟩ => ⟨S1700000, .i32⟩
  | .hbm, ⟨34, _⟩ => ⟨S1700000, .i1⟩
  | .hbm, ⟨35, _⟩ => ⟨S_, .i32⟩
  | .hbm, ⟨36, _⟩ => ⟨S1700000, .i32⟩
  | .hbm, ⟨37, _⟩ => ⟨S1700000, .i32⟩
  | .hbm, ⟨38, _⟩ => ⟨S1700000, .i32⟩
  | .hbm, ⟨39, _⟩ => ⟨S1700000x1, .i32⟩
  | .hbm, ⟨40, _⟩ => ⟨S1700000, .f32⟩
  | .hbm, ⟨41, _⟩ => ⟨S1700000, .f32⟩
  | .hbm, ⟨42, _⟩ => ⟨S100000x128, .f32⟩
  | .hbm, ⟨43, _⟩ => ⟨S_, .i32⟩
  | .hbm, ⟨44, _⟩ => ⟨S1700000, .i32⟩
  | .hbm, ⟨45, _⟩ => ⟨S1700000, .i1⟩
  | .hbm, ⟨46, _⟩ => ⟨S_, .i32⟩
  | .hbm, ⟨47, _⟩ => ⟨S1700000, .i32⟩
  | .hbm, ⟨48, _⟩ => ⟨S1700000, .i32⟩
  | .hbm, ⟨49, _⟩ => ⟨S1700000, .i32⟩
  | .hbm, ⟨50, _⟩ => ⟨S1700000x1, .i32⟩
  | .hbm, ⟨51, _⟩ => ⟨S1700000x128, .f32⟩
  | .hbm, ⟨52, _⟩ => ⟨S1700000x1, .f32⟩
  | .hbm, ⟨53, _⟩ => ⟨S1700000x128, .f32⟩
  | .hbm, ⟨54, _⟩ => ⟨S1700000x128, .f32⟩
  | .hbm, ⟨55, _⟩ => ⟨S_, .f32⟩
  | .hbm, ⟨56, _⟩ => ⟨S100000x128, .f32⟩
  | .hbm, ⟨57, _⟩ => ⟨S1700000x1, .i32⟩
  | .hbm, ⟨58, _⟩ => ⟨S100000x128, .f32⟩
  | .hbm, ⟨59, _⟩ => ⟨S1x128, .f32⟩
  | .hbm, ⟨60, _⟩ => ⟨S100000x128, .f32⟩
  | .hbm, ⟨61, _⟩ => ⟨S100000x64, .f32⟩
  | .hbm, ⟨62, _⟩ => ⟨S_, .i32⟩
  | .hbm, ⟨63, _⟩ => ⟨S1700000, .i32⟩
  | .hbm, ⟨64, _⟩ => ⟨S1700000, .i1⟩
  | .hbm, ⟨65, _⟩ => ⟨S_, .i32⟩
  | .hbm, ⟨66, _⟩ => ⟨S1700000, .i32⟩
  | .hbm, ⟨67, _⟩ => ⟨S1700000, .i32⟩
  | .hbm, ⟨68, _⟩ => ⟨S1700000, .i32⟩
  | .hbm, ⟨69, _⟩ => ⟨S1700000x1, .i32⟩
  | .hbm, ⟨70, _⟩ => ⟨S1700000x64, .f32⟩
  | .hbm, ⟨71, _⟩ => ⟨S1700000x1, .f32⟩
  | .hbm, ⟨72, _⟩ => ⟨S1700000x64, .f32⟩
  | .hbm, ⟨73, _⟩ => ⟨S1700000x64, .f32⟩
  | .hbm, ⟨74, _⟩ => ⟨S_, .f32⟩
  | .hbm, ⟨75, _⟩ => ⟨S100000x64, .f32⟩
  | .hbm, ⟨76, _⟩ => ⟨S1700000x1, .i32⟩
  | .hbm, ⟨77, _⟩ => ⟨S100000x64, .f32⟩
  | .hbm, ⟨78, _⟩ => ⟨S1x64, .f32⟩
  | .hbm, ⟨79, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S1x64, .f32⟩
  | .local _ .vmem, ⟨18, _⟩ => ⟨S5000x64, .f32⟩
  | .local _ .vmem, ⟨19, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c : Ref sig .tc := ⟨.hbm, 23, rfl⟩
abbrev main_v14 : Ref sig .tc := ⟨.hbm, 24, rfl⟩
abbrev main_v15 : Ref sig .tc := ⟨.hbm, 25, rfl⟩
abbrev main_c_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_c_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_c_6 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_7 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_c_8 : Ref sig .tc := ⟨.hbm, 62, rfl⟩
abbrev main_v46 : Ref sig .tc := ⟨.hbm, 63, rfl⟩
abbrev main_v47 : Ref sig .tc := ⟨.hbm, 64, rfl⟩
abbrev main_c_9 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_cst_10 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x64_S5000x64_1_0_0_1_n_n_wf : DotDims.WF S5000x128 S128x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S100000x64.size a
  hwx2_2 : ∀ i : grid2.Coords, EltTy.bits .f32 = 32 ∨ (Rect.block (s := S100000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S100000x64.size a
  hwx3_2 : ∀ i : grid3.Coords, EltTy.bits .f32 = 32 ∨ (Rect.block (s := S100000x64) S5000x64.size (cc3_transform_2 i) (hinb3_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v42) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v43) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v44) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v44) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg3) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v45) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v58) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v59) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v60) S5000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x128 : Shape := ⟨2, ![100000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S2x1600000 : Shape := ⟨2, ![2, 1600000]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x64 : Shape := ⟨2, ![100000, 64]⟩
abbrev S1700000x64 : Shape := ⟨2, ![1700000, 64]⟩
abbrev S1x64 : Shape := ⟨2, ![1, 64]⟩

abbrev nBuf : Space → Nat
  | .hbm => 88
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S128x64, .f32⟩
  | .hbm, ⟨4, _⟩ => ⟨S64, .f32⟩
  | .hbm, ⟨5, _⟩ => ⟨S2x1600000, .i32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S100000, .f32⟩
  | .hbm, ⟨23, _⟩ => ⟨S_, .i32⟩
  | .hbm, ⟨24, _⟩ => ⟨S1700000, .i32⟩
  | .hbm, ⟨25, _⟩ => ⟨S1700000, .i1⟩
  | .hbm, ⟨26, _⟩ => ⟨S_, .i32⟩
  | .hbm, ⟨27, _⟩ => ⟨S1700000, .i32⟩
  | .hbm, ⟨28, _⟩ => ⟨S1700000, .i32⟩
  | .hbm, ⟨29, _⟩ => ⟨S1700000, .i32⟩
  | .hbm, ⟨30, _⟩ => ⟨S1700000x1, .i32⟩
  | .hbm, ⟨31, _⟩ => ⟨S1700000, .f32⟩
  | .hbm, ⟨32, _⟩ => ⟨S_, .i32⟩
  | .hbm, ⟨33, _⟩ => ⟨S1700000, .i32⟩
  | .hbm, ⟨34, _⟩ => ⟨S1700000, .i1⟩
  | .hbm, ⟨35, _⟩ => ⟨S_, .i32⟩
  | .hbm, ⟨36, _⟩ => ⟨S1700000, .i32⟩
  | .hbm, ⟨37, _⟩ => ⟨S1700000, .i32⟩
  | .hbm, ⟨38, _⟩ => ⟨S1700000, .i32⟩
  | .hbm, ⟨39, _⟩ => ⟨S1700000x1, .i32⟩
  | .hbm, ⟨40, _⟩ => ⟨S1700000, .f32⟩
  | .hbm, ⟨41, _⟩ => ⟨S1700000, .f32⟩
  | .hbm, ⟨42, _⟩ => ⟨S100000x128, .f32⟩
  | .hbm, ⟨43, _⟩ => ⟨S_, .i32⟩
  | .hbm, ⟨44, _⟩ => ⟨S1700000, .i32⟩
  | .hbm, ⟨45, _⟩ => ⟨S1700000, .i1⟩
  | .hbm, ⟨46, _⟩ => ⟨S_, .i32⟩
  | .hbm, ⟨47, _⟩ => ⟨S1700000, .i32⟩
  | .hbm, ⟨48, _⟩ => ⟨S1700000, .i32⟩
  | .hbm, ⟨49, _⟩ => ⟨S1700000, .i32⟩
  | .hbm, ⟨50, _⟩ => ⟨S1700000x1, .i32⟩
  | .hbm, ⟨51, _⟩ => ⟨S1700000x128, .f32⟩
  | .hbm, ⟨52, _⟩ => ⟨S1700000x1, .f32⟩
  | .hbm, ⟨53, _⟩ => ⟨S1700000x128, .f32⟩
  | .hbm, ⟨54, _⟩ => ⟨S1700000x128, .f32⟩
  | .hbm, ⟨55, _⟩ => ⟨S_, .f32⟩
  | .hbm, ⟨56, _⟩ => ⟨S100000x128, .f32⟩
  | .hbm, ⟨57, _⟩ => ⟨S1700000x1, .i32⟩
  | .hbm, ⟨58, _⟩ => ⟨S100000x128, .f32⟩
  | .hbm, ⟨59, _⟩ => ⟨S1x128, .f32⟩
  | .hbm, ⟨60, _⟩ => ⟨S100000x128, .f32⟩
  | .hbm, ⟨61, _⟩ => ⟨S100000x128, .f32⟩
  | .hbm, ⟨62, _⟩ => ⟨S_, .f32⟩
  | .hbm, ⟨63, _⟩ => ⟨S100000x128, .f32⟩
  | .hbm, ⟨64, _⟩ => ⟨S100000x128, .f32⟩
  | .hbm, ⟨65, _⟩ => ⟨S100000x64, .f32⟩
  | .hbm, ⟨66, _⟩ => ⟨S_, .i32⟩
  | .hbm, ⟨67, _⟩ => ⟨S1700000, .i32⟩
  | .hbm, ⟨68, _⟩ => ⟨S1700000, .i1⟩
  | .hbm, ⟨69, _⟩ => ⟨S_, .i32⟩
  | .hbm, ⟨70, _⟩ => ⟨S1700000, .i32⟩
  | .hbm, ⟨71, _⟩ => ⟨S1700000, .i32⟩
  | .hbm, ⟨72, _⟩ => ⟨S1700000, .i32⟩
  | .hbm, ⟨73, _⟩ => ⟨S1700000x1, .i32⟩
  | .hbm, ⟨74, _⟩ => ⟨S1700000x64, .f32⟩
  | .hbm, ⟨75, _⟩ => ⟨S1700000x1, .f32⟩
  | .hbm, ⟨76, _⟩ => ⟨S1700000x64, .f32⟩
  | .hbm, ⟨77, _⟩ => ⟨S1700000x64, .f32⟩
  | .hbm, ⟨78, _⟩ => ⟨S_, .f32⟩
  | .hbm, ⟨79, _⟩ => ⟨S100000x64, .f32⟩
  | .hbm, ⟨80, _⟩ => ⟨S1700000x1, .i32⟩
  | .hbm, ⟨81, _⟩ => ⟨S100000x64, .f32⟩
  | .hbm, ⟨82, _⟩ => ⟨S1x64, .f32⟩
  | .hbm, ⟨83, _⟩ => ⟨S100000x64, .f32⟩
  | .hbm, ⟨84, _⟩ => ⟨S100000x64, .f32⟩
  | .hbm, ⟨85, _⟩ => ⟨S_, .f32⟩
  | .hbm, ⟨86, _⟩ => ⟨S100000x64, .f32⟩
  | .hbm, ⟨87, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c : Ref sig .tc := ⟨.hbm, 23, rfl⟩
abbrev main_v14 : Ref sig .tc := ⟨.hbm, 24, rfl⟩
abbrev main_v15 : Ref sig .tc := ⟨.hbm, 25, rfl⟩
abbrev main_c_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_c_3 : Ref sig .tc := ⟨.hbm, 32, rfl⟩
abbrev main_v21 : Ref sig .tc := ⟨.hbm, 33, rfl⟩
abbrev main_v22 : Ref sig .tc := ⟨.hbm, 34, rfl⟩
abbrev main_c_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_c_5 : Ref sig .tc := ⟨.hbm, 43, rfl⟩
abbrev main_v30 : Ref sig .tc := ⟨.hbm, 44, rfl⟩
abbrev main_v31 : Ref sig .tc := ⟨.hbm, 45, rfl⟩
abbrev main_c_6 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_7 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_call0_cst : Ref sig .tc := ⟨.hbm, 62, rfl⟩
abbrev main_call0_v0 : Ref sig .tc := ⟨.hbm, 63, rfl⟩
abbrev main_v46 : Ref sig .tc := ⟨.hbm, 64, rfl⟩
abbrev main_v47 : Ref sig .tc := ⟨.hbm, 65, rfl⟩
abbrev main_c_8 : Ref sig .tc := ⟨.hbm, 66, rfl⟩
abbrev main_v48 : Ref sig .tc := ⟨.hbm, 67, rfl⟩
abbrev main_v49 : Ref sig .tc := ⟨.hbm, 68, rfl⟩
abbrev main_c_9 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_cst_10 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_call1_cst : Ref sig .tc := ⟨.hbm, 85, rfl⟩
abbrev main_call1_v0 : Ref sig .tc := ⟨.hbm, 86, rfl⟩
abbrev main_v64 : Ref sig .tc := ⟨.hbm, 87, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.LibKeepdims.lean ====
/-
  Keepdims column forms and row-sum normalisation, read at an index (extended reals, the ideal instance).

  A row sum kept as a column — `[a] → [a, 1]` by a shape cast (a kernel) or by a `broadcast_in_dim` along axis 0 (the
  host) — and that column laid back over the columns of an `[a, b]` matrix — by a vector broadcast (a kernel) or a
  `broadcast_in_dim` along axes 0 and 1 (the host) — read, at `(i, j)`, the vector's entry `i`. With them, "divide every
  entry of a matrix by the sum of its row" is read at `(r, k)` as `x (r, k) / ∑ k', x (r, k')` in both spellings, and a plain
  `m × k` by `k × n` product accumulated into a zero splat (a kernel) or with no accumulator (the host) as
  `∑ c, A (a, c) * B (c, b)`.
-/
import Idealize.ShloMosaic.PureOps.Ideal.Laws
import Idealize.ShloMosaic.Lib.ValueIdx
import Idealize.ShloMosaic.Lib.Pipeline.Value
import Idealize.ShloMosaic.Lib.KernelVsHost
import Idealize.ShloMosaic.Lib.StackMember

noncomputable section

namespace Cert.LibKeepdims

open Idealize.ShloMosaic Idealize.ShloMosaic.ValueIdx

variable {α : Type}

/-- Over a rank-2 shape reduced along axis 1, the source index above row `r` with coordinate `k` on the dropped axis is `(r, k)`. -/
theorem lift_ix1 {a b : ℕ} (h : (⟨2, ![a, b]⟩ : Shape).Reduces [(1 : Fin 2)] ⟨1, ![a]⟩) (r : Fin a) (k : Fin b) :
    h.lift (ix1 r) k = ix2 r k :=
  funext fun c => Fin.ext (match c with | ⟨0, _⟩ => rfl | ⟨1, _⟩ => rfl)

/-- An `[a]` vector cast to the column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast over the columns of `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's `broadcast_in_dim` of an `[a]` vector along axis 0 of `[a, 1]` reads, at `(i, u)`, the vector at `i`. -/
theorem broadcastInDim_a_a1_apply {a : ℕ} (dims : Fin 1 → Fin 2) (hd : dims 0 = 0)
    (h : (⟨1, ![a]⟩ : Shape).BroadcastsInDim ⟨2, ![a, 1]⟩ dims) (x : (⟨1, ![a]⟩ : Shape).Idx → α)
    (i : Fin a) (u : Fin 1) : broadcastInDim ⟨2, ![a, 1]⟩ dims h x (ix2 i u) = x (ix1 i) := by
  refine broadcastInDim_apply dims h x (ix2 i u) (ix1 i) fun ax => ?_
  match ax with
  | ⟨0, _⟩ =>
    show i.val = if a = 1 then 0 else ((ix2 i u : (⟨2, ![a, 1]⟩ : Shape).Idx) (dims 0)).val
    rw [hd]
    split
    · have := i.isLt; omega
    · rfl

/-- The host's `broadcast_in_dim` of a column `[a, 1]` along axes 0 and 1 of `[a, b]` reads, at `(p, c)`, the column at row `p`. -/
theorem broadcastInDim_a1_ab_apply {a b : ℕ} (dims : Fin 2 → Fin 2) (hd0 : dims 0 = 0) (hd1 : dims 1 = 1)
    (h : (⟨2, ![a, 1]⟩ : Shape).BroadcastsInDim ⟨2, ![a, b]⟩ dims) (v : (⟨2, ![a, 1]⟩ : Shape).Idx → α)
    (p : Fin a) (c : Fin b) : broadcastInDim ⟨2, ![a, b]⟩ dims h v (ix2 p c) = v (ix2 p (0 : Fin 1)) := by
  refine broadcastInDim_apply dims h v (ix2 p c) (ix2 p (0 : Fin 1)) fun ax => ?_
  match ax with
  | ⟨0, _⟩ =>
    show p.val = if a = 1 then 0 else ((ix2 p c : (⟨2, ![a, b]⟩ : Shape).Idx) (dims 0)).val
    rw [hd0]
    split
    · have := p.isLt; omega
    · rfl
  | ⟨1, _⟩ => rfl

/-! ## Every entry divided by the sum of its row -/

/-- A kernel's spelling: the lane sum over axis 1 (accumulator the neutral zero), cast to a column, broadcast back over the
    columns, and the quotient — at `(r, k)` it is `y (r, k) / ∑ k', y (r, k')`. -/
theorem divRowSum_kernel_apply {a b : ℕ} (y : FVec Ideal ⟨2, ![a, b]⟩ .f32)
    (h : (⟨2, ![a, b]⟩ : Shape).Reduces [(1 : Fin 2)] ⟨1, ![a]⟩) (hφ : FKind.Formats .f32)
    (hacc : (0x00000000#32 : BitVec (FTy.bits .f32)) = FKind.add.neutral .f32 hφ)
    (hc : (⟨1, ![a]⟩ : Shape).ShapeCasts ⟨2, ![a, 1]⟩) (hb : (⟨2, ![a, 1]⟩ : Shape).Broadcasts ⟨2, ![a, b]⟩)
    (r : Fin a) (k : Fin b) :
    divf y (broadcastTo ⟨2, ![a, b]⟩ (shapeCast ⟨2, ![a, 1]⟩ (multiReduction .add [(1 : Fin 2)] ⟨1, ![a]⟩ y 0x00000000#32 h hφ hacc) hc) hb) (ix2 r k)
      = Ideal.div (y (ix2 r k)) (∑ k' : Fin b, y (ix2 r k')) := by
  refine congrArg (Ideal.div (y (ix2 r k))) ?_
  refine (broadcastTo_a1_ab_apply _ hb r k).trans ?_
  refine (shapeCast_a_a1_apply _ hc r 0).trans ?_
  refine (Ideal.multiReduction_add_single y _ h hφ hacc (ix1 r)).trans ?_
  exact Finset.sum_congr rfl fun k' _ => congrArg y (lift_ix1 h r k')

/-- The host's spelling: `stablehlo.reduce` with add over axis 1 from an initial zero, `broadcast_in_dim` to a column and then
    over the matrix, and `stablehlo.divide` — the same quotient at `(r, k)`. -/
theorem divRowSum_host_apply {a b : ℕ} {u : Shape} (y : FVec Ideal ⟨2, ![a, b]⟩ .f32)
    (h' : (⟨2, ![a, b]⟩ : Shape).ReducesTo [(1 : Fin 2)] ⟨1, ![a]⟩) (h : (⟨2, ![a, b]⟩ : Shape).Reduces [(1 : Fin 2)] ⟨1, ![a]⟩)
    (hu : 0 < u.numel)
    (d1 : Fin 1 → Fin 2) (hd1 : d1 0 = 0) (hb1 : (⟨1, ![a]⟩ : Shape).BroadcastsInDim ⟨2, ![a, 1]⟩ d1)
    (d2 : Fin 2 → Fin 2) (hd20 : d2 0 = 0) (hd21 : d2 1 = 1) (hb2 : (⟨2, ![a, 1]⟩ : Shape).BroadcastsInDim ⟨2, ![a, b]⟩ d2)
    (r : Fin a) (k : Fin b) :
    Host.divf y (broadcastInDim ⟨2, ![a, b]⟩ d2 hb2 (broadcastInDim ⟨2, ![a, 1]⟩ d1 hb1
        (Host.reduceAdd y (constant (F := Ideal) u .f32 0x00000000#32) h' hu))) (ix2 r k)
      = Ideal.div (y (ix2 r k)) (∑ k' : Fin b, y (ix2 r k')) := by
  refine congrArg (Ideal.div (y (ix2 r k))) ?_
  refine (broadcastInDim_a1_ab_apply d2 hd20 hd21 hb2 _ r k).trans ?_
  refine (broadcastInDim_a_a1_apply d1 hd1 hb1 _ r 0).trans ?_
  show Ideal.hostReduceAdd h' y (Ideal.ofBits .f32 0x00000000#32) (ix1 r) = _
  rw [Ideal.hostReduceAdd_single h' h, Ideal.ofBits_zero_f32, zero_add]
  exact Finset.sum_congr rfl fun k' _ => congrArg y (lift_ix1 h r k')

/-! ## A plain matrix product at an index -/

/-- The host's `dot_general` with the plain dimension numbers (contract axis 1 of the left with axis 0 of the right), read at `(p, q)`. -/
theorem dotGeneral_plain_apply {m k n : ℕ} {φ₁ φ₂ : FTy} (d : DotDims ⟨2, ![m, k]⟩ ⟨2, ![k, n]⟩ ⟨2, ![m, n]⟩)
    (hd : d = DotDims.plain m k n) (prec : Option ContractPrecision)
    (A : FVec Ideal ⟨2, ![m, k]⟩ φ₁) (B : FVec Ideal ⟨2, ![k, n]⟩ φ₂) (p : Fin m) (q : Fin n) :
    Host.dotGeneral d prec A B (ix2 p q) = ∑ c : Fin k, A (ix2 p c) * B (ix2 c q) := by
  subst hd
  exact StackMember.dotGeneral_plain_apply prec A B p q

/-- A kernel's `tpu.matmul` with the plain dimension numbers into a zero splat, read at `(p, q)`: the same sum. -/
theorem matmul_plain_apply {m k n : ℕ} {φ₁ φ₂ : FTy} (d : DotDims ⟨2, ![m, k]⟩ ⟨2, ![k, n]⟩ ⟨2, ![m, n]⟩)
    (hd : d = DotDims.plain m k n) (prec : Option ContractPrecision)
    (A : FVec Ideal ⟨2, ![m, k]⟩ φ₁) (B : FVec Ideal ⟨2, ![k, n]⟩ φ₂) (p : Fin m) (q : Fin n) :
    matmul d prec A B (constant ⟨2, ![m, n]⟩ .f32 0x00000000#32) (ix2 p q) = ∑ c : Fin k, A (ix2 p c) * B (ix2 c q) := by
  rw [matmul_zero_eq_dotGeneral]
  exact dotGeneral_plain_apply d hd prec A B p q

end Cert.LibKeepdims

end
-- ==== Proof.Region0.lean ====
/-
  Region 0 of the kernel program: a 100000 × 128 matrix times a 128 × 128 matrix, computed twenty row blocks of
  5000 at a time. Each grid point multiplies its row block by the whole right factor, so the array the region
  leaves is the plain matrix product of the two arrays it found: entry (r, q) is the sum over c of
  x (r, c) · w (c, q), and row r lies in block r / 5000.
-/
import proofs.«143754_j85229331021973_1_alg».proof.Proof.Gen.KernelIdeal.Frame
import proofs.«143754_j85229331021973_1_alg».proof.Proof.LibKeepdims
import Idealize.ShloMosaic.Lib.Pipeline.Value
import Idealize.ShloMosaic.Lib.ValueIdx
import Idealize.ShloMosaic.PureOps.Ideal.Laws

set_option maxRecDepth 16384

noncomputable section

namespace Cert.KernelIdeal.Region0

open Idealize.ShloMosaic Idealize.ShloMosaic.TcCoe Idealize.ShloMosaic.ValueIdx
open Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem origin_zero : (![0, 0] : Fin 2 → Nat) = fun _ => 0 := funext fun a => by fin_cases a <;> rfl

/-- The whole product: what the region's output array holds at its exit, as a function of the two arrays it read. -/
def product (x : FVec Ideal S100000x128 .f32) (w : FVec Ideal S128x128 .f32) : FVec Ideal S100000x128 .f32 :=
  Host.dotGeneral (DotDims.plain 100000 128 128) none x w

/-- One grid point's stored value at (p, q): the row block's row p against column q of the right factor. -/
theorem payload_apply (xb : Vec Ideal S5000x128 .f32) (wb : Vec Ideal S128x128 .f32) (p : Fin 5000) (q : Fin 128) :
    k0_pay1 xb wb (ix2 p q) = ∑ c : Fin 128, xb (ix2 p c) * wb (ix2 c q) := by
  simp only [k0_pay1, shapeCast_self]
  exact Cert.LibKeepdims.matmul_plain_apply _ rfl none _ _ p q

/-- Where the windows' blocks sit: point t reads rows 5000 t … of the left factor and writes the same rows of the
    output; the right factor's one block is the whole array. -/
theorem block_positions : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the product of the arrays the region found. -/
theorem flushed_eq (c : Dev nD) (t : Fin cfg0.N) :
    (dat0 V c).flushed 2 t = ((cfg0.win 2).blk t).view.read (Elt Ideal) (product (V c main_arg0) (V c main_arg1)) := by
  show (cfg0.win 2).cut (grid0.coords t) ((dat0 V c).after 2 t) = _
  rw [after0_2]
  unfold out0_2
  rw [View.canon_unit_zero origin_zero]
  simp only [View.ld_unit_zero (S := S5000x128) origin_zero, View.ld_unit_zero (S := S128x128) origin_zero]
  obtain ⟨e0, e1, e2, e3, e4, e5⟩ := block_positions t
  funext j
  obtain ⟨p, q, rfl⟩ : ∃ (p : Fin 5000) (q : Fin 128), j = ix2 p q := ⟨j 0, j 1, eq_ix2 j⟩
  refine (payload_apply _ _ p q).trans ?_
  have hp : t.val * 5000 + p.val < 100000 := by
    have hN : cfg0.N = 20 := N_0
    have ht := t.isLt
    have := p.isLt; omega
  have hout : ((cfg0.win 2).blk t).view.emb (ix2 p q) = ix2 (⟨t.val * 5000 + p.val, hp⟩ : Fin 100000) q := by
    funext a; apply Fin.ext
    match a with
    | ⟨0, _⟩ => show win0_2.index t (0 : Fin 2) * 5000 + 1 * p.val = t.val * 5000 + p.val; omega
    | ⟨1, _⟩ => show win0_2.index t (1 : Fin 2) * 128 + 1 * q.val = q.val; omega
  show _ = product (V c main_arg0) (V c main_arg1) (((cfg0.win 2).blk t).view.emb (ix2 p q))
  rw [hout]
  unfold product
  rw [Cert.LibKeepdims.dotGeneral_plain_apply _ rfl]
  refine Finset.sum_congr rfl fun k _ => ?_
  have hl : ((cfg0.win 0).blk t).view.emb (ix2 p k) = ix2 (⟨t.val * 5000 + p.val, hp⟩ : Fin 100000) k := by
    funext a; apply Fin.ext
    match a with
    | ⟨0, _⟩ => show win0_0.index t (0 : Fin 2) * 5000 + 1 * p.val = t.val * 5000 + p.val; omega
    | ⟨1, _⟩ => show win0_0.index t (1 : Fin 2) * 128 + 1 * k.val = k.val; omega
  have hr : ((cfg0.win 1).blk t).view.emb (ix2 k q) = ix2 k q := by
    funext a; apply Fin.ext
    match a with
    | ⟨0, _⟩ => show win0_1.index t (0 : Fin 2) * 128 + 1 * k.val = k.val; omega
    | ⟨1, _⟩ => show win0_1.index t (1 : Fin 2) * 128 + 1 * q.val = q.val; omega
  have h1 : (iblk0 V c 0 t (ix2 p k) : EReal) = V c main_arg0 (ix2 (⟨t.val * 5000 + p.val, hp⟩ : Fin 100000) k) :=
    congrArg (V c main_arg0) hl
  have h2 : (iblk0 V c 1 t (ix2 k q) : EReal) = V c main_arg1 (ix2 k q) := congrArg (V c main_arg1) hr
  exact congrArg₂ (fun a b : EReal => a * b) h1 h2

/-- An index of the output array is in point t's block iff each coordinate is in the block's range on its axis. -/
theorem mem_block (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v29).slice (win0_2.rect t)).set ↔ _
  rw [View.set_slice_whole, Rect.mem_set_unit]
  exact Iff.rfl

/-- Every row lies in the block of the point numbered by its quotient by 5000. -/
theorem covered (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 20 := N_0
  let t : Fin cfg0.N := ⟨(i 0).val / 5000, by omega⟩
  obtain ⟨e0, e1, e2, e3, e4, e5⟩ := block_positions t
  have ht : t.val = (i 0).val / 5000 := rfl
  refine ⟨t, flush0_2 t, ?_⟩
  rw [mem_block]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- The region's output array at its exit is the product of the arrays it found. -/
theorem output (c : Dev nD) : (dat0 V c).arrAt 2 cfg0.N = product (V c main_arg0) (V c main_arg1) :=
  (dat0 V c).arrAt_eq_of_cover 2 _ (fun t _ => flushed_eq V c t) covered

end Cert.KernelIdeal.Region0

end
-- ==== Proof.Region1.lean ====
/-
  Region 1 of the kernel program: the bias row added to every row of a 100000 × 128 array and the sum clipped below at
  zero, twenty row blocks of 5000 at a time. The bias reaches the region as a 1 × 128 array whose one block is the
  whole array, so the array the region leaves holds, at (r, q), the larger of a (r, q) + b (0, q) and zero.
-/
import proofs.«143754_j85229331021973_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region1

open Idealize.ShloMosaic Idealize.ShloMosaic.TcCoe Idealize.ShloMosaic.ValueIdx
open Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem origin_zero : (![0, 0] : Fin 2 → Nat) = fun _ => 0 := funext fun a => by fin_cases a <;> rfl

/-- The bias row's entry above column `i 1`. -/
abbrev biasIdx (i : S100000x128.Idx) : S1x128.Idx := fun a => match a with
  | ⟨0, _⟩ => ⟨0, Nat.one_pos⟩
  | ⟨1, _⟩ => ⟨(i 1).val, (i 1).isLt⟩

/-- What the region's output array holds at its exit, as a function of the two arrays it read. -/
def biasRelu (a : FVec Ideal S100000x128 .f32) (b : FVec Ideal S1x128 .f32) : FVec Ideal S100000x128 .f32 :=
  fun i => max (a i + b (biasIdx i)) (Ideal.ofBits .f32 0x00000000#32)

/-- One grid point's stored value at (p, q). -/
theorem payload_apply (ab : Vec Ideal S5000x128 .f32) (bb : Vec Ideal S1x128 .f32) (p : Fin 5000) (q : Fin 128) :
    k1_pay1 ab bb (ix2 p q) = max (ab (ix2 p q) + bb (ix2 (0 : Fin 1) q)) (Ideal.ofBits .f32 0x00000000#32) := by
  unfold k1_pay1
  show max (shapeCast S5000x128 ab shapeCasts_S5000x128_S5000x128 (ix2 p q)
      + broadcastTo S5000x128 (shapeCast S1x128 bb shapeCasts_S1x128_S1x128) broadcasts_S1x128_S5000x128 (ix2 p q)) _ = _
  rw [shapeCast_self, shapeCast_self, broadcastTo_1b_ab_apply]
  rfl

/-- Where the windows' blocks sit: point t reads rows 5000 t … of the array and writes the same rows of the output;
    the bias row's one block is the whole row. -/
theorem block_positions : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point t writes back is block t of `biasRelu` of the arrays the region found. -/
theorem flushed_eq (c : Dev nD) (t : Fin cfg1.N) :
    (dat1 V c).flushed 2 t = ((cfg1.win 2).blk t).view.read (Elt Ideal) (biasRelu (V c main_v42) (V c main_v43)) := by
  show (cfg1.win 2).cut (grid1.coords t) ((dat1 V c).after 2 t) = _
  rw [after1_2]
  unfold out1_2
  rw [View.canon_unit_zero origin_zero]
  simp only [View.ld_unit_zero (S := S5000x128) origin_zero, View.ld_unit_zero (S := S1x128) origin_zero]
  obtain ⟨e0, e1, e2, e3, e4, e5⟩ := block_positions t
  funext j
  obtain ⟨p, q, rfl⟩ : ∃ (p : Fin 5000) (q : Fin 128), j = ix2 p q := ⟨j 0, j 1, eq_ix2 j⟩
  refine (payload_apply _ _ p q).trans ?_
  have hp : t.val * 5000 + p.val < 100000 := by
    have hN : cfg1.N = 20 := N_1
    have ht := t.isLt
    have := p.isLt; omega
  have hout : ((cfg1.win 2).blk t).view.emb (ix2 p q) = ix2 (⟨t.val * 5000 + p.val, hp⟩ : Fin 100000) q := by
    funext a; apply Fin.ext
    match a with
    | ⟨0, _⟩ => show win1_2.index t (0 : Fin 2) * 5000 + 1 * p.val = t.val * 5000 + p.val; omega
    | ⟨1, _⟩ => show win1_2.index t (1 : Fin 2) * 128 + 1 * q.val = q.val; omega
  show _ = biasRelu (V c main_v42) (V c main_v43) (((cfg1.win 2).blk t).view.emb (ix2 p q))
  rw [hout]
  unfold biasRelu
  have hl : ((cfg1.win 0).blk t).view.emb (ix2 p q) = ix2 (⟨t.val * 5000 + p.val, hp⟩ : Fin 100000) q := by
    funext a; apply Fin.ext
    match a with
    | ⟨0, _⟩ => show win1_0.index t (0 : Fin 2) * 5000 + 1 * p.val = t.val * 5000 + p.val; omega
    | ⟨1, _⟩ => show win1_0.index t (1 : Fin 2) * 128 + 1 * q.val = q.val; omega
  have hr : ((cfg1.win 1).blk t).view.emb (ix2 (0 : Fin 1) q) = biasIdx (ix2 (⟨t.val * 5000 + p.val, hp⟩ : Fin 100000) q) := by
    funext a; apply Fin.ext
    match a with
    | ⟨0, _⟩ => show win1_1.index t (0 : Fin 2) * 1 + 1 * 0 = 0; omega
    | ⟨1, _⟩ => show win1_1.index t (1 : Fin 2) * 128 + 1 * q.val = q.val; omega
  have h1 : (iblk1 V c 0 t (ix2 p q) : EReal) = V c main_v42 (ix2 (⟨t.val * 5000 + p.val, hp⟩ : Fin 100000) q) :=
    congrArg (V c main_v42) hl
  have h2 : (iblk1 V c 1 t (ix2 (0 : Fin 1) q) : EReal) = V c main_v43 (biasIdx (ix2 (⟨t.val * 5000 + p.val, hp⟩ : Fin 100000) q)) :=
    congrArg (V c main_v43) hr
  exact congrArg₂ (fun a b : EReal => max (a + b) (Ideal.ofBits .f32 0x00000000#32)) h1 h2

/-- An index of the output array is in point t's block iff each coordinate is in the block's range on its axis. -/
theorem mem_block (t : Fin cfg1.N) (i : S100000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v44).slice (win1_2.rect t)).set ↔ _
  rw [View.set_slice_whole, Rect.mem_set_unit]
  exact Iff.rfl

/-- Every row lies in the block of the point numbered by its quotient by 5000. -/
theorem covered (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  have hN : cfg1.N = 20 := N_1
  let t : Fin cfg1.N := ⟨(i 0).val / 5000, by omega⟩
  obtain ⟨e0, e1, e2, e3, e4, e5⟩ := block_positions t
  have ht : t.val = (i 0).val / 5000 := rfl
  refine ⟨t, flush1_2 t, ?_⟩
  rw [mem_block]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 128 ≤ (i 1).val ∧ (i 1).val < win1_2.index t (1 : Fin 2) * 128 + 128; omega

/-- The region's output array at its exit is `biasRelu` of the arrays it found. -/
theorem output (c : Dev nD) : (dat1 V c).arrAt 2 cfg1.N = biasRelu (V c main_v42) (V c main_v43) :=
  (dat1 V c).arrAt_eq_of_cover 2 _ (fun t _ => flushed_eq V c t) covered

end Cert.KernelIdeal.Region1

end
-- ==== Proof.Region2.lean ====
/-
  Region 2 of the kernel program: a 100000 × 128 matrix times a 128 × 64 matrix, computed twenty row blocks of
  5000 at a time. Each grid point multiplies its row block by the whole right factor, so the array the region
  leaves is the plain matrix product of the two arrays it found: entry (r, q) is the sum over c of
  x (r, c) · w (c, q), and row r lies in block r / 5000.
-/
import proofs.«143754_j85229331021973_1_alg».proof.Proof.Gen.KernelIdeal.Frame
import proofs.«143754_j85229331021973_1_alg».proof.Proof.LibKeepdims
import Idealize.ShloMosaic.Lib.Pipeline.Value
import Idealize.ShloMosaic.Lib.ValueIdx
import Idealize.ShloMosaic.PureOps.Ideal.Laws

set_option maxRecDepth 16384

noncomputable section

namespace Cert.KernelIdeal.Region2

open Idealize.ShloMosaic Idealize.ShloMosaic.TcCoe Idealize.ShloMosaic.ValueIdx
open Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem origin_zero : (![0, 0] : Fin 2 → Nat) = fun _ => 0 := funext fun a => by fin_cases a <;> rfl

/-- The whole product: what the region's output array holds at its exit, as a function of the two arrays it read. -/
def product (x : FVec Ideal S100000x128 .f32) (w : FVec Ideal S128x64 .f32) : FVec Ideal S100000x64 .f32 :=
  Host.dotGeneral (DotDims.plain 100000 128 64) none x w

/-- One grid point's stored value at (p, q): the row block's row p against column q of the right factor. -/
theorem payload_apply (xb : Vec Ideal S5000x128 .f32) (wb : Vec Ideal S128x64 .f32) (p : Fin 5000) (q : Fin 64) :
    k2_pay1 xb wb (ix2 p q) = ∑ c : Fin 128, xb (ix2 p c) * wb (ix2 c q) := by
  simp only [k2_pay1, shapeCast_self]
  exact Cert.LibKeepdims.matmul_plain_apply _ rfl none _ _ p q

/-- Where the windows' blocks sit: point t reads rows 5000 t … of the left factor and writes the same rows of the
    output; the right factor's one block is the whole array. -/
theorem block_positions : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point t writes back is block t of the product of the arrays the region found. -/
theorem flushed_eq (c : Dev nD) (t : Fin cfg2.N) :
    (dat2 V c).flushed 2 t = ((cfg2.win 2).blk t).view.read (Elt Ideal) (product (V c main_v44) (V c main_arg3)) := by
  show (cfg2.win 2).cut (grid2.coords t) ((dat2 V c).after 2 t) = _
  rw [after2_2]
  unfold out2_2
  rw [View.canon_unit_zero origin_zero]
  simp only [View.ld_unit_zero (S := S5000x128) origin_zero, View.ld_unit_zero (S := S128x64) origin_zero]
  obtain ⟨e0, e1, e2, e3, e4, e5⟩ := block_positions t
  funext j
  obtain ⟨p, q, rfl⟩ : ∃ (p : Fin 5000) (q : Fin 64), j = ix2 p q := ⟨j 0, j 1, eq_ix2 j⟩
  refine (payload_apply _ _ p q).trans ?_
  have hp : t.val * 5000 + p.val < 100000 := by
    have hN : cfg2.N = 20 := N_2
    have ht := t.isLt
    have := p.isLt; omega
  have hout : ((cfg2.win 2).blk t).view.emb (ix2 p q) = ix2 (⟨t.val * 5000 + p.val, hp⟩ : Fin 100000) q := by
    funext a; apply Fin.ext
    match a with
    | ⟨0, _⟩ => show win2_2.index t (0 : Fin 2) * 5000 + 1 * p.val = t.val * 5000 + p.val; omega
    | ⟨1, _⟩ => show win2_2.index t (1 : Fin 2) * 64 + 1 * q.val = q.val; omega
  show _ = product (V c main_v44) (V c main_arg3) (((cfg2.win 2).blk t).view.emb (ix2 p q))
  rw [hout]
  unfold product
  rw [Cert.LibKeepdims.dotGeneral_plain_apply _ rfl]
  refine Finset.sum_congr rfl fun k _ => ?_
  have hl : ((cfg2.win 0).blk t).view.emb (ix2 p k) = ix2 (⟨t.val * 5000 + p.val, hp⟩ : Fin 100000) k := by
    funext a; apply Fin.ext
    match a with
    | ⟨0, _⟩ => show win2_0.index t (0 : Fin 2) * 5000 + 1 * p.val = t.val * 5000 + p.val; omega
    | ⟨1, _⟩ => show win2_0.index t (1 : Fin 2) * 128 + 1 * k.val = k.val; omega
  have hr : ((cfg2.win 1).blk t).view.emb (ix2 k q) = ix2 k q := by
    funext a; apply Fin.ext
    match a with
    | ⟨0, _⟩ => show win2_1.index t (0 : Fin 2) * 128 + 1 * k.val = k.val; omega
    | ⟨1, _⟩ => show win2_1.index t (1 : Fin 2) * 64 + 1 * q.val = q.val; omega
  have h1 : (iblk2 V c 0 t (ix2 p k) : EReal) = V c main_v44 (ix2 (⟨t.val * 5000 + p.val, hp⟩ : Fin 100000) k) :=
    congrArg (V c main_v44) hl
  have h2 : (iblk2 V c 1 t (ix2 k q) : EReal) = V c main_arg3 (ix2 k q) := congrArg (V c main_arg3) hr
  exact congrArg₂ (fun a b : EReal => a * b) h1 h2

/-- An index of the output array is in point t's block iff each coordinate is in the block's range on its axis. -/
theorem mem_block (t : Fin cfg2.N) (i : S100000x64.Idx) :
    i ∈ ((cfg2.win 2).blk t).view.set ↔ ∀ a : Fin 2, win2_2.index t a * S5000x64.size a ≤ (i a).val ∧ (i a).val < win2_2.index t a * S5000x64.size a + S5000x64.size a := by
  show i ∈ ((View.whole main_v45).slice (win2_2.rect t)).set ↔ _
  rw [View.set_slice_whole, Rect.mem_set_unit]
  exact Iff.rfl

/-- Every row lies in the block of the point numbered by its quotient by 5000. -/
theorem covered (i : S100000x64.Idx) :
    ∃ t : Fin cfg2.N, (cfg2.win 2).flush t = true ∧ i ∈ ((cfg2.win 2).blk t).view.set := by
  have hi0 : (i 0).val < 100000 := (i 0).isLt
  have hi1 : (i 1).val < 64 := (i 1).isLt
  have hN : cfg2.N = 20 := N_2
  let t : Fin cfg2.N := ⟨(i 0).val / 5000, by omega⟩
  obtain ⟨e0, e1, e2, e3, e4, e5⟩ := block_positions t
  have ht : t.val = (i 0).val / 5000 := rfl
  refine ⟨t, flush2_2 t, ?_⟩
  rw [mem_block]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 64 ≤ (i 1).val ∧ (i 1).val < win2_2.index t (1 : Fin 2) * 64 + 64; omega

/-- The region's output array at its exit is the product of the arrays it found. -/
theorem output (c : Dev nD) : (dat2 V c).arrAt 2 cfg2.N = product (V c main_v44) (V c main_arg3) :=
  (dat2 V c).arrAt_eq_of_cover 2 _ (fun t _ => flushed_eq V c t) covered

end Cert.KernelIdeal.Region2

end
-- ==== Proof.Region3.lean ====
/-
  Region 3 of the kernel program: the bias row added to every row of a 100000 × 64 array and the sum clipped below at
  zero, twenty row blocks of 5000 at a time. The bias reaches the region as a 1 × 64 array whose one block is the
  whole array, so the array the region leaves holds, at (r, q), the larger of a (r, q) + b (0, q) and zero.
-/
import proofs.«143754_j85229331021973_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region3

open Idealize.ShloMosaic Idealize.ShloMosaic.TcCoe Idealize.ShloMosaic.ValueIdx
open Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem origin_zero : (![0, 0] : Fin 2 → Nat) = fun _ => 0 := funext fun a => by fin_cases a <;> rfl

/-- The bias row's entry above column `i 1`. -/
abbrev biasIdx (i : S100000x64.Idx) : S1x64.Idx := fun a => match a with
  | ⟨0, _⟩ => ⟨0, Nat.one_pos⟩
  | ⟨1, _⟩ => ⟨(i 1).val, (i 1).isLt⟩

/-- What the region's output array holds at its exit, as a function of the two arrays it read. -/
def biasRelu (a : FVec Ideal S100000x64 .f32) (b : FVec Ideal S1x64 .f32) : FVec Ideal S100000x64 .f32 :=
  fun i => max (a i + b (biasIdx i)) (Ideal.ofBits .f32 0x00000000#32)

/-- One grid point's stored value at (p, q). -/
theorem payload_apply (ab : Vec Ideal S5000x64 .f32) (bb : Vec Ideal S1x64 .f32) (p : Fin 5000) (q : Fin 64) :
    k3_pay1 ab bb (ix2 p q) = max (ab (ix2 p q) + bb (ix2 (0 : Fin 1) q)) (Ideal.ofBits .f32 0x00000000#32) := by
  unfold k3_pay1
  show max (shapeCast S5000x64 ab shapeCasts_S5000x64_S5000x64 (ix2 p q)
      + broadcastTo S5000x64 (shapeCast S1x64 bb shapeCasts_S1x64_S1x64) broadcasts_S1x64_S5000x64 (ix2 p q)) _ = _
  rw [shapeCast_self, shapeCast_self, broadcastTo_1b_ab_apply]
  rfl

/-- Where the windows' blocks sit: point t reads rows 5000 t … of the array and writes the same rows of the output;
    the bias row's one block is the whole row. -/
theorem block_positions : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point t writes back is block t of `biasRelu` of the arrays the region found. -/
theorem flushed_eq (c : Dev nD) (t : Fin cfg3.N) :
    (dat3 V c).flushed 2 t = ((cfg3.win 2).blk t).view.read (Elt Ideal) (biasRelu (V c main_v58) (V c main_v59)) := by
  show (cfg3.win 2).cut (grid3.coords t) ((dat3 V c).after 2 t) = _
  rw [after3_2]
  unfold out3_2
  rw [View.canon_unit_zero origin_zero]
  simp only [View.ld_unit_zero (S := S5000x64) origin_zero, View.ld_unit_zero (S := S1x64) origin_zero]
  obtain ⟨e0, e1, e2, e3, e4, e5⟩ := block_positions t
  funext j
  obtain ⟨p, q, rfl⟩ : ∃ (p : Fin 5000) (q : Fin 64), j = ix2 p q := ⟨j 0, j 1, eq_ix2 j⟩
  refine (payload_apply _ _ p q).trans ?_
  have hp : t.val * 5000 + p.val < 100000 := by
    have hN : cfg3.N = 20 := N_3
    have ht := t.isLt
    have := p.isLt; omega
  have hout : ((cfg3.win 2).blk t).view.emb (ix2 p q) = ix2 (⟨t.val * 5000 + p.val, hp⟩ : Fin 100000) q := by
    funext a; apply Fin.ext
    match a with
    | ⟨0, _⟩ => show win3_2.index t (0 : Fin 2) * 5000 + 1 * p.val = t.val * 5000 + p.val; omega
    | ⟨1, _⟩ => show win3_2.index t (1 : Fin 2) * 64 + 1 * q.val = q.val; omega
  show _ = biasRelu (V c main_v58) (V c main_v59) (((cfg3.win 2).blk t).view.emb (ix2 p q))
  rw [hout]
  unfold biasRelu
  have hl : ((cfg3.win 0).blk t).view.emb (ix2 p q) = ix2 (⟨t.val * 5000 + p.val, hp⟩ : Fin 100000) q := by
    funext a; apply Fin.ext
    match a with
    | ⟨0, _⟩ => show win3_0.index t (0 : Fin 2) * 5000 + 1 * p.val = t.val * 5000 + p.val; omega
    | ⟨1, _⟩ => show win3_0.index t (1 : Fin 2) * 64 + 1 * q.val = q.val; omega
  have hr : ((cfg3.win 1).blk t).view.emb (ix2 (0 : Fin 1) q) = biasIdx (ix2 (⟨t.val * 5000 + p.val, hp⟩ : Fin 100000) q) := by
    funext a; apply Fin.ext
    match a with
    | ⟨0, _⟩ => show win3_1.index t (0 : Fin 2) * 1 + 1 * 0 = 0; omega
    | ⟨1, _⟩ => show win3_1.index t (1 : Fin 2) * 64 + 1 * q.val = q.val; omega
  have h1 : (iblk3 V c 0 t (ix2 p q) : EReal) = V c main_v58 (ix2 (⟨t.val * 5000 + p.val, hp⟩ : Fin 100000) q) :=
    congrArg (V c main_v58) hl
  have h2 : (iblk3 V c 1 t (ix2 (0 : Fin 1) q) : EReal) = V c main_v59 (biasIdx (ix2 (⟨t.val * 5000 + p.val, hp⟩ : Fin 100000) q)) :=
    congrArg (V c main_v59) hr
  exact congrArg₂ (fun a b : EReal => max (a + b) (Ideal.ofBits .f32 0x00000000#32)) h1 h2

/-- An index of the output array is in point t's block iff each coordinate is in the block's range on its axis. -/
theorem mem_block (t : Fin cfg3.N) (i : S100000x64.Idx) :
    i ∈ ((cfg3.win 2).blk t).view.set ↔ ∀ a : Fin 2, win3_2.index t a * S5000x64.size a ≤ (i a).val ∧ (i a).val < win3_2.index t a * S5000x64.size a + S5000x64.size a := by
  show i ∈ ((View.whole main_v60).slice (win3_2.rect t)).set ↔ _
  rw [View.set_slice_whole, Rect.mem_set_unit]
  exact Iff.rfl

/-- Every row lies in the block of the point numbered by its quotient by 5000. -/
theorem covered (i : S100000x64.Idx) :
    ∃ t : Fin cfg3.N, (cfg3.win 2).flush t = true ∧ i ∈ ((cfg3.win 2).blk t).view.set := by
  have hi0 : (i 0).val < 100000 := (i 0).isLt
  have hi1 : (i 1).val < 64 := (i 1).isLt
  have hN : cfg3.N = 20 := N_3
  let t : Fin cfg3.N := ⟨(i 0).val / 5000, by omega⟩
  obtain ⟨e0, e1, e2, e3, e4, e5⟩ := block_positions t
  have ht : t.val = (i 0).val / 5000 := rfl
  refine ⟨t, flush3_2 t, ?_⟩
  rw [mem_block]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 64 ≤ (i 1).val ∧ (i 1).val < win3_2.index t (1 : Fin 2) * 64 + 64; omega

/-- The region's output array at its exit is `biasRelu` of the arrays it found. -/
theorem output (c : Dev nD) : (dat3 V c).arrAt 2 cfg3.N = biasRelu (V c main_v58) (V c main_v59) :=
  (dat3 V c).arrAt_eq_of_cover 2 _ (fun t _ => flushed_eq V c t) covered

end Cert.KernelIdeal.Region3

end
-- ==== Proof.RefLayers.lean ====
/-
  The reference program, one graph-convolution layer at a time. Each layer multiplies the node features by a weight
  matrix, sums over every edge (and every node's self loop) the source node's row scaled by the edge's normalisation into
  the destination node's row, adds the bias row and clips below at zero. Here the two non-matrix steps of a layer —
  the normalised neighbour sum and the bias-and-clip — are named as functions of the array they act on, so that the
  reference's result is the four steps composed.
-/
import proofs.«143754_j85229331021973_1_alg».proof.Proof.Gen.ReferenceIdeal.Read

noncomputable section

namespace Cert.ReferenceIdeal.Layers

open Cert.ReferenceIdeal Cert.ReferenceIdeal.Gen Cert.ReferenceIdeal.Read Idealize.ShloMosaic

variable {F : FTy → Type} [FloatOps F]

/-- The normalised neighbour sum of a 100000 × 128 array `h`: row d of the result is the sum, over the edges and self
    loops with destination d, of row (source) of `h` times the edge's normalisation; the edge list is read off `e`. -/
def aggregate128 (h : (⟨S100000x128, .f32⟩ : BufTy).Contents (Elt F)) (e : (⟨S2x1600000, .i32⟩ : BufTy).Contents (Elt F)) : (⟨S100000x128, .f32⟩ : BufTy).Contents (Elt F) :=
  Host.scatterAdd scatter_S100000x128_S1700000x1_S1700000x128_1_0_0_1 (val_main_v40 (F := F)) (val_main_v41 (F := F) e)
    (mulf (Host.gather gather_S100000x128_S1700000x1_S1700000x128_1_0_n_n_0_1_1128 h (val_main_v35 (F := F) e)) (val_main_v38 (F := F) e))

/-- The same sum for a 100000 × 64 array. -/
def aggregate64 (h : (⟨S100000x64, .f32⟩ : BufTy).Contents (Elt F)) (e : (⟨S2x1600000, .i32⟩ : BufTy).Contents (Elt F)) : (⟨S100000x64, .f32⟩ : BufTy).Contents (Elt F) :=
  Host.scatterAdd scatter_S100000x64_S1700000x1_S1700000x64_1_0_0_1 (val_main_v58 (F := F)) (val_main_v59 (F := F) e)
    (mulf (Host.gather gather_S100000x64_S1700000x1_S1700000x64_1_0_n_n_0_1_164 h (val_main_v53 (F := F) e)) (val_main_v56 (F := F) e))

/-- The first layer's bias row added to every row and the sum clipped below at zero. -/
def biasClip128 (a : (⟨S100000x128, .f32⟩ : BufTy).Contents (Elt F)) (b : (⟨S128, .f32⟩ : BufTy).Contents (Elt F)) : (⟨S100000x128, .f32⟩ : BufTy).Contents (Elt F) :=
  maximumf (addf a (val_main_v44 (F := F) b)) (val_main_call0_v0 (F := F))

/-- The second layer's bias row added to every row and the sum clipped below at zero. -/
def biasClip64 (a : (⟨S100000x64, .f32⟩ : BufTy).Contents (Elt F)) (b : (⟨S64, .f32⟩ : BufTy).Contents (Elt F)) : (⟨S100000x64, .f32⟩ : BufTy).Contents (Elt F) :=
  maximumf (addf a (val_main_v62 (F := F) b)) (val_main_call1_v0 (F := F))

/-- The reference's result is the two layers composed: product, neighbour sum, bias-and-clip, twice. -/
theorem result_eq (x0 : (⟨S100000x128, .f32⟩ : BufTy).Contents (Elt F)) (x1 : (⟨S128x128, .f32⟩ : BufTy).Contents (Elt F)) (x2 : (⟨S128, .f32⟩ : BufTy).Contents (Elt F))
    (x3 : (⟨S128x64, .f32⟩ : BufTy).Contents (Elt F)) (x4 : (⟨S64, .f32⟩ : BufTy).Contents (Elt F)) (e : (⟨S2x1600000, .i32⟩ : BufTy).Contents (Elt F)) :
    val_main_v64 (F := F) x0 x1 x2 x3 x4 e
      = biasClip64 (aggregate64 (Host.dotGeneral dot_S100000x128_S128x64_S100000x64_1_0_0_1_n_n none
          (biasClip128 (aggregate128 (Host.dotGeneral dot_S100000x128_S128x128_S100000x128_1_0_0_1_n_n none x0 x1) e) x2) x3) e) x4 := rfl

end Cert.ReferenceIdeal.Layers

end
-- ==== Proof.Boundary.lean ====
/-
  The kernel program's arrays at the boundaries between its stretches of host operations and its four regions, each
  named as a function of the program's arguments. The edge list gives the source, destination and normalisation
  columns once, before the first region, and no later operation writes them; region 0 leaves the first product, the
  stretch after it the first neighbour sum and the bias as a one-row array, region 1 the clipped sum, region 2 the
  second product, the last stretch the second neighbour sum and bias row, region 3 the result.
-/
import proofs.«143754_j85229331021973_1_alg».proof.Proof.Gen.KernelIdeal.Frame
import proofs.«143754_j85229331021973_1_alg».proof.Proof.Region0
import proofs.«143754_j85229331021973_1_alg».proof.Proof.Region1
import proofs.«143754_j85229331021973_1_alg».proof.Proof.Region2
import proofs.«143754_j85229331021973_1_alg».proof.Proof.Region3
import proofs.«143754_j85229331021973_1_alg».proof.Proof.RefLayers
import Idealize.ShloMosaic.Lib.StableHlo.Run

set_option maxRecDepth 16384

noncomputable section

namespace Cert.KernelIdeal.Boundary

open Idealize.ShloMosaic Idealize.ShloMosaic.TcCoe Idealize.ShloMosaic.StableHlo
open Idealize.SL.Sem
open Cert.KernelIdeal Cert.KernelIdeal.Gen

variable (m : (ℓ : Loc nD τ sig) → Buf (Elt Ideal) ℓ) (ρ : Dev nD → PrngReg)

/-! ## Before region 0 -/

theorem W1_arg0 (c : Dev nD) : W1 m ρ c (Proc.devRef .tc main_arg0) = m ((c : Thread nD τ).loc main_arg0) := by
  show StableHlo.after hostOps0 (W0 m ρ c) (Proc.devRef .tc main_arg0) = _
  after_results_simp <;> rfl
theorem W1_arg1 (c : Dev nD) : W1 m ρ c (Proc.devRef .tc main_arg1) = m ((c : Thread nD τ).loc main_arg1) := by
  show StableHlo.after hostOps0 (W0 m ρ c) (Proc.devRef .tc main_arg1) = _
  after_results_simp <;> rfl

/-- The source column: the edge list's first row, then every node once. -/
theorem W1_src (c : Dev nD) : W1 m ρ c (Proc.devRef .tc main_v3)
    = Cert.ReferenceIdeal.Read.val_main_v3 (F := Ideal) (m ((c : Thread nD τ).loc main_arg5)) := by
  show StableHlo.after hostOps0 (W0 m ρ c) (Proc.devRef .tc main_v3) = _
  after_results_simp <;> rfl

/-- The destination column: the edge list's second row, then every node once. -/
theorem W1_dst (c : Dev nD) : W1 m ρ c (Proc.devRef .tc main_v6)
    = Cert.ReferenceIdeal.Read.val_main_v6 (F := Ideal) (m ((c : Thread nD τ).loc main_arg5)) := by
  show StableHlo.after hostOps0 (W0 m ρ c) (Proc.devRef .tc main_v6) = _
  after_results_simp <;> rfl

/-- The normalisation column: the inverse square roots of the two end nodes' degrees, multiplied. -/
theorem W1_norm (c : Dev nD) : W1 m ρ c (Proc.devRef .tc main_v28)
    = Cert.ReferenceIdeal.Read.val_main_v28 (F := Ideal) (m ((c : Thread nD τ).loc main_arg5)) := by
  show StableHlo.after hostOps0 (W0 m ρ c) (Proc.devRef .tc main_v28) = _
  after_results_simp <;> rfl

theorem W1_arg2 (c : Dev nD) : W1 m ρ c (Proc.devRef .tc main_arg2) = m ((c : Thread nD τ).loc main_arg2) := by
  show StableHlo.after hostOps0 (W0 m ρ c) (Proc.devRef .tc main_arg2) = _
  after_results_simp <;> rfl
theorem W1_arg3 (c : Dev nD) : W1 m ρ c (Proc.devRef .tc main_arg3) = m ((c : Thread nD τ).loc main_arg3) := by
  show StableHlo.after hostOps0 (W0 m ρ c) (Proc.devRef .tc main_arg3) = _
  after_results_simp <;> rfl
theorem W1_arg4 (c : Dev nD) : W1 m ρ c (Proc.devRef .tc main_arg4) = m ((c : Thread nD τ).loc main_arg4) := by
  show StableHlo.after hostOps0 (W0 m ρ c) (Proc.devRef .tc main_arg4) = _
  after_results_simp <;> rfl

/-! ## After region 0 -/

/-- Region 0 leaves the first product in its output array. -/
theorem W2_product (c : Dev nD) : W2 m ρ c (Proc.devRef .tc main_v29)
    = Region0.product (m ((c : Thread nD τ).loc main_arg0)) (m ((c : Thread nD τ).loc main_arg1)) :=
  (W2_arr m ρ c 2).trans ((Region0.output (V1 m ρ) c).trans (congrArg₂ Region0.product (W1_arg0 m ρ c) (W1_arg1 m ρ c)))

theorem W2_src (c : Dev nD) : W2 m ρ c (Proc.devRef .tc main_v3) = Cert.ReferenceIdeal.Read.val_main_v3 (F := Ideal) (m ((c : Thread nD τ).loc main_arg5)) :=
  (W2_of_ne m ρ c main_v3 (by decide)).trans (W1_src m ρ c)
theorem W2_dst (c : Dev nD) : W2 m ρ c (Proc.devRef .tc main_v6) = Cert.ReferenceIdeal.Read.val_main_v6 (F := Ideal) (m ((c : Thread nD τ).loc main_arg5)) :=
  (W2_of_ne m ρ c main_v6 (by decide)).trans (W1_dst m ρ c)
theorem W2_norm (c : Dev nD) : W2 m ρ c (Proc.devRef .tc main_v28) = Cert.ReferenceIdeal.Read.val_main_v28 (F := Ideal) (m ((c : Thread nD τ).loc main_arg5)) :=
  (W2_of_ne m ρ c main_v28 (by decide)).trans (W1_norm m ρ c)
theorem W2_arg2 (c : Dev nD) : W2 m ρ c (Proc.devRef .tc main_arg2) = m ((c : Thread nD τ).loc main_arg2) :=
  (W2_of_ne m ρ c main_arg2 (by decide)).trans (W1_arg2 m ρ c)
theorem W2_arg3 (c : Dev nD) : W2 m ρ c (Proc.devRef .tc main_arg3) = m ((c : Thread nD τ).loc main_arg3) :=
  (W2_of_ne m ρ c main_arg3 (by decide)).trans (W1_arg3 m ρ c)
theorem W2_arg4 (c : Dev nD) : W2 m ρ c (Proc.devRef .tc main_arg4) = m ((c : Thread nD τ).loc main_arg4) :=
  (W2_of_ne m ρ c main_arg4 (by decide)).trans (W1_arg4 m ρ c)

/-! ## Before region 1 -/

/-- The first neighbour sum, of the first product. -/
theorem W3_sum (c : Dev nD) : W3 m ρ c (Proc.devRef .tc main_v42)
    = Cert.ReferenceIdeal.Layers.aggregate128 (F := Ideal) (Region0.product (m ((c : Thread nD τ).loc main_arg0)) (m ((c : Thread nD τ).loc main_arg1))) (m ((c : Thread nD τ).loc main_arg5)) := by
  show StableHlo.after hostOps1 (W2 m ρ c) (Proc.devRef .tc main_v42) = _
  after_results_simp
  rw [W2_product, W2_src, W2_dst, W2_norm]
  rfl

/-- The first bias, as a one-row array. -/
theorem W3_bias (c : Dev nD) : W3 m ρ c (Proc.devRef .tc main_v43)
    = shapeCast S1x128 (m ((c : Thread nD τ).loc main_arg2)) shapeCasts_S128_S1x128 := by
  show StableHlo.after hostOps1 (W2 m ρ c) (Proc.devRef .tc main_v43) = _
  after_results_simp
  rw [W2_arg2]
  rfl

theorem W3_src (c : Dev nD) : W3 m ρ c (Proc.devRef .tc main_v3) = Cert.ReferenceIdeal.Read.val_main_v3 (F := Ideal) (m ((c : Thread nD τ).loc main_arg5)) := by
  show StableHlo.after hostOps1 (W2 m ρ c) (Proc.devRef .tc main_v3) = _
  after_results_simp
  exact W2_src m ρ c
theorem W3_dst (c : Dev nD) : W3 m ρ c (Proc.devRef .tc main_v6) = Cert.ReferenceIdeal.Read.val_main_v6 (F := Ideal) (m ((c : Thread nD τ).loc main_arg5)) := by
  show StableHlo.after hostOps1 (W2 m ρ c) (Proc.devRef .tc main_v6) = _
  after_results_simp
  exact W2_dst m ρ c
theorem W3_norm (c : Dev nD) : W3 m ρ c (Proc.devRef .tc main_v28) = Cert.ReferenceIdeal.Read.val_main_v28 (F := Ideal) (m ((c : Thread nD τ).loc main_arg5)) := by
  show StableHlo.after hostOps1 (W2 m ρ c) (Proc.devRef .tc main_v28) = _
  after_results_simp
  exact W2_norm m ρ c
theorem W3_arg3 (c : Dev nD) : W3 m ρ c (Proc.devRef .tc main_arg3) = m ((c : Thread nD τ).loc main_arg3) := by
  show StableHlo.after hostOps1 (W2 m ρ c) (Proc.devRef .tc main_arg3) = _
  after_results_simp
  exact W2_arg3 m ρ c
theorem W3_arg4 (c : Dev nD) : W3 m ρ c (Proc.devRef .tc main_arg4) = m ((c : Thread nD τ).loc main_arg4) := by
  show StableHlo.after hostOps1 (W2 m ρ c) (Proc.devRef .tc main_arg4) = _
  after_results_simp
  exact W2_arg4 m ρ c

/-! ## After region 1, and after region 2 -/

/-- The first layer's output. -/
def hidden (x0 : FVec Ideal S100000x128 .f32) (x1 : FVec Ideal S128x128 .f32) (x2 : FVec Ideal S128 .f32)
    (e : IVec S2x1600000 32) : FVec Ideal S100000x128 .f32 :=
  Region1.biasRelu (Cert.ReferenceIdeal.Layers.aggregate128 (F := Ideal) (Region0.product x0 x1) e) (shapeCast S1x128 x2 shapeCasts_S128_S1x128)

theorem W4_hidden (c : Dev nD) : W4 m ρ c (Proc.devRef .tc main_v44) = hidden (m ((c : Thread nD τ).loc main_arg0)) (m ((c : Thread nD τ).loc main_arg1)) (m ((c : Thread nD τ).loc main_arg2)) (m ((c : Thread nD τ).loc main_arg5)) :=
  (W4_arr m ρ c 2).trans ((Region1.output (V3 m ρ) c).trans (congrArg₂ Region1.biasRelu (W3_sum m ρ c) (W3_bias m ρ c)))

theorem W4_arg3 (c : Dev nD) : W4 m ρ c (Proc.devRef .tc main_arg3) = m ((c : Thread nD τ).loc main_arg3) :=
  (W4_of_ne m ρ c main_arg3 (by decide)).trans (W3_arg3 m ρ c)

/-- Region 2 leaves the second product. -/
theorem W5_product (c : Dev nD) : W5 m ρ c (Proc.devRef .tc main_v45)
    = Region2.product (hidden (m ((c : Thread nD τ).loc main_arg0)) (m ((c : Thread nD τ).loc main_arg1)) (m ((c : Thread nD τ).loc main_arg2)) (m ((c : Thread nD τ).loc main_arg5))) (m ((c : Thread nD τ).loc main_arg3)) :=
  (W5_arr m ρ c 2).trans ((Region2.output (V4 m ρ) c).trans (congrArg₂ Region2.product (W4_hidden m ρ c) (W4_arg3 m ρ c)))

theorem W5_src (c : Dev nD) : W5 m ρ c (Proc.devRef .tc main_v3) = Cert.ReferenceIdeal.Read.val_main_v3 (F := Ideal) (m ((c : Thread nD τ).loc main_arg5)) :=
  (W5_of_ne m ρ c main_v3 (by decide)).trans ((W4_of_ne m ρ c main_v3 (by decide)).trans (W3_src m ρ c))
theorem W5_dst (c : Dev nD) : W5 m ρ c (Proc.devRef .tc main_v6) = Cert.ReferenceIdeal.Read.val_main_v6 (F := Ideal) (m ((c : Thread nD τ).loc main_arg5)) :=
  (W5_of_ne m ρ c main_v6 (by decide)).trans ((W4_of_ne m ρ c main_v6 (by decide)).trans (W3_dst m ρ c))
theorem W5_norm (c : Dev nD) : W5 m ρ c (Proc.devRef .tc main_v28) = Cert.ReferenceIdeal.Read.val_main_v28 (F := Ideal) (m ((c : Thread nD τ).loc main_arg5)) :=
  (W5_of_ne m ρ c main_v28 (by decide)).trans ((W4_of_ne m ρ c main_v28 (by decide)).trans (W3_norm m ρ c))
theorem W5_arg4 (c : Dev nD) : W5 m ρ c (Proc.devRef .tc main_arg4) = m ((c : Thread nD τ).loc main_arg4) :=
  (W5_of_ne m ρ c main_arg4 (by decide)).trans ((W4_of_ne m ρ c main_arg4 (by decide)).trans (W3_arg4 m ρ c))

/-! ## Before region 3, and the result -/

/-- The second neighbour sum, of the second product. -/
theorem W6_sum (c : Dev nD) : W6 m ρ c (Proc.devRef .tc main_v58)
    = Cert.ReferenceIdeal.Layers.aggregate64 (F := Ideal) (Region2.product (hidden (m ((c : Thread nD τ).loc main_arg0)) (m ((c : Thread nD τ).loc main_arg1)) (m ((c : Thread nD τ).loc main_arg2)) (m ((c : Thread nD τ).loc main_arg5))) (m ((c : Thread nD τ).loc main_arg3))) (m ((c : Thread nD τ).loc main_arg5)) := by
  show StableHlo.after hostOps3 (W5 m ρ c) (Proc.devRef .tc main_v58) = _
  after_results_simp
  rw [W5_product, W5_src, W5_dst, W5_norm]
  rfl

/-- The second bias, as a one-row array. -/
theorem W6_bias (c : Dev nD) : W6 m ρ c (Proc.devRef .tc main_v59)
    = shapeCast S1x64 (m ((c : Thread nD τ).loc main_arg4)) shapeCasts_S64_S1x64 := by
  show StableHlo.after hostOps3 (W5 m ρ c) (Proc.devRef .tc main_v59) = _
  after_results_simp
  rw [W5_arg4]
  rfl

/-- The kernel program's result as a function of its arguments. -/
def result (x0 : FVec Ideal S100000x128 .f32) (x1 : FVec Ideal S128x128 .f32) (x2 : FVec Ideal S128 .f32)
    (x3 : FVec Ideal S128x64 .f32) (x4 : FVec Ideal S64 .f32) (e : IVec S2x1600000 32) : FVec Ideal S100000x64 .f32 :=
  Region3.biasRelu (Cert.ReferenceIdeal.Layers.aggregate64 (F := Ideal) (Region2.product (hidden x0 x1 x2 e) x3) e) (shapeCast S1x64 x4 shapeCasts_S64_S1x64)

/-- Region 3 leaves the result in the program's result buffer. -/
theorem W7_result (c : Dev nD) : W7 m ρ c (Proc.devRef .tc main_v60)
    = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (W7_arr m ρ c 2).trans ((Region3.output (V6 m ρ) c).trans (congrArg₂ Region3.biasRelu (W6_sum m ρ c) (W6_bias m ρ c)))

end Cert.KernelIdeal.Boundary

end
-- ==== Proof.Bridge.lean ====
/-
  The kernel's two kinds of region against the reference's operations, as whole arrays of extended reals. A region's
  product is the reference's product (the same sum over the contracted axis: a change of float format before it is the
  identity here). A region's bias-and-clip reads the bias through a one-row array, the reference's through two
  broadcasts; both read entry q of the bias at every row, add it and take the larger of the sum and zero.
-/
import proofs.«143754_j85229331021973_1_alg».proof.Proof.Region0
import proofs.«143754_j85229331021973_1_alg».proof.Proof.Region1
import proofs.«143754_j85229331021973_1_alg».proof.Proof.Region2
import proofs.«143754_j85229331021973_1_alg».proof.Proof.Region3
import proofs.«143754_j85229331021973_1_alg».proof.Proof.RefLayers
import Idealize.ShloMosaic.Lib.Pipeline.Value
import Idealize.ShloMosaic.Lib.ValueIdx

set_option maxRecDepth 16384

noncomputable section

namespace Cert.Bridge

open Idealize.ShloMosaic Idealize.ShloMosaic.ValueIdx
open Cert.ReferenceIdeal.Read

/-- The first product. -/
theorem product128_eq (x : FVec Ideal Cert.KernelIdeal.S100000x128 .f32) (w : FVec Ideal Cert.KernelIdeal.S128x128 .f32) :
    Cert.KernelIdeal.Region0.product x w
      = Host.dotGeneral Cert.ReferenceIdeal.dot_S100000x128_S128x128_S100000x128_1_0_0_1_n_n none x w := rfl

/-- The second product. -/
theorem product64_eq (x : FVec Ideal Cert.KernelIdeal.S100000x128 .f32) (w : FVec Ideal Cert.KernelIdeal.S128x64 .f32) :
    Cert.KernelIdeal.Region2.product x w
      = Host.dotGeneral Cert.ReferenceIdeal.dot_S100000x128_S128x64_S100000x64_1_0_0_1_n_n none x w := rfl

/-- The first bias-and-clip: the bias vector recast as one row, read above column `i 1`, is the vector's entry `i 1`. -/
theorem biasRelu128_eq (a : FVec Ideal Cert.KernelIdeal.S100000x128 .f32) (b : FVec Ideal Cert.KernelIdeal.S128 .f32) :
    Cert.KernelIdeal.Region1.biasRelu a (shapeCast Cert.KernelIdeal.S1x128 b Cert.KernelIdeal.Facts₀.shapeCasts_S128_S1x128)
      = Cert.ReferenceIdeal.Layers.biasClip128 (F := Ideal) a b := by
  funext i
  unfold Cert.KernelIdeal.Region1.biasRelu Cert.ReferenceIdeal.Layers.biasClip128
  rw [maximumf_apply, addf_apply, val_main_v44_apply, val_main_v43_apply, val_main_call0_v0_apply, val_main_call0_cst_apply]
  rw [shapeCast_apply b Cert.KernelIdeal.Facts₀.shapeCasts_S128_S1x128 (Cert.KernelIdeal.Region1.biasIdx i) (idx_main_v43 (idx_main_v44 i))
    (by rw [Shape.rowMajor_val_one, Shape.rowMajor_val_two]; show (i 1).val = 0 * 128 + (i 1).val; omega)]
  rfl

/-- The second bias-and-clip. -/
theorem biasRelu64_eq (a : FVec Ideal Cert.KernelIdeal.S100000x64 .f32) (b : FVec Ideal Cert.KernelIdeal.S64 .f32) :
    Cert.KernelIdeal.Region3.biasRelu a (shapeCast Cert.KernelIdeal.S1x64 b Cert.KernelIdeal.Facts₀.shapeCasts_S64_S1x64)
      = Cert.ReferenceIdeal.Layers.biasClip64 (F := Ideal) a b := by
  funext i
  unfold Cert.KernelIdeal.Region3.biasRelu Cert.ReferenceIdeal.Layers.biasClip64
  rw [maximumf_apply, addf_apply, val_main_v62_apply, val_main_v61_apply, val_main_call1_v0_apply, val_main_call1_cst_apply]
  rw [shapeCast_apply b Cert.KernelIdeal.Facts₀.shapeCasts_S64_S1x64 (Cert.KernelIdeal.Region3.biasIdx i) (idx_main_v61 (idx_main_v62 i))
    (by rw [Shape.rowMajor_val_one, Shape.rowMajor_val_two]; show (i 1).val = 0 * 64 + (i 1).val; omega)]
  rfl

end Cert.Bridge

end
-- ==== Proof.lean ====
/-
  A two-layer graph convolution on 100000 nodes. Each layer multiplies the node features by a weight matrix, sums over
  every edge and every node's self loop the source node's row scaled by the edge's normalisation (the product of the
  inverse square roots of the end nodes' degrees) into the destination node's row, adds a bias row and clips below at
  zero. The kernel program computes each layer's matrix product and its bias-and-clip in row blocks of 5000 and the
  neighbour sums by the same gathers and scatters as the reference; the reference does everything on whole arrays.

  Over the extended reals the two agree entry by entry. A blocked product is the whole product, because a row's
  entries depend on that row alone and the change of float format before the product is the identity; the
  bias-and-clip is pointwise, and the one-row array the kernel reads the bias through holds the bias vector's entries;
  the neighbour sums are literally the same operations of the same edge list. No law of arithmetic that could fail at
  an infinity is used: the two sides are the same sums of the same products, so the finiteness of the inputs is never
  opened.

  The frames of the two kernel programs are the generated ones; the reference's frame is its run with the result
  dropped; the idealization rewrote no operation, so what it preserves is trivially true.
-/
import proofs.«143754_j85229331021973_1_alg».proof.Defs
import proofs.«143754_j85229331021973_1_alg».proof.Proof.Gen.Kernel
import proofs.«143754_j85229331021973_1_alg».proof.Proof.Gen.Kernel.Frame
import proofs.«143754_j85229331021973_1_alg».proof.Proof.Gen.KernelIdeal
import proofs.«143754_j85229331021973_1_alg».proof.Proof.Gen.KernelIdeal.Frame
import proofs.«143754_j85229331021973_1_alg».proof.Proof.Gen.ReferenceIdeal
import proofs.«143754_j85229331021973_1_alg».proof.Proof.Gen.ReferenceIdeal.Run
import proofs.«143754_j85229331021973_1_alg».proof.Proof.Gen.ReferenceIdeal.Read
import proofs.«143754_j85229331021973_1_alg».proof.Proof.Gen.Pre_finite_inputs
import proofs.«143754_j85229331021973_1_alg».proof.Proof.ResultRun
import proofs.«143754_j85229331021973_1_alg».proof.Proof.Boundary
import proofs.«143754_j85229331021973_1_alg».proof.Proof.Bridge
import proofs.«143754_j85229331021973_1_alg».proof.Proof.RefLayers
import Idealize.ShloMosaic.Adequacy
import Idealize.ShloMosaic.Init

set_option maxRecDepth 16384

noncomputable section

namespace Cert.Proof

open Idealize.ShloMosaic Idealize.SL.Sem

/-- The kernel program's result, as a function of its arguments, is the reference's: the reference's two layers
    composed, with each product and each bias-and-clip replaced by the region that computes it. -/
theorem result_eq (x0 : FVec Ideal Cert.KernelIdeal.S100000x128 .f32) (x1 : FVec Ideal Cert.KernelIdeal.S128x128 .f32)
    (x2 : FVec Ideal Cert.KernelIdeal.S128 .f32) (x3 : FVec Ideal Cert.KernelIdeal.S128x64 .f32) (x4 : FVec Ideal Cert.KernelIdeal.S64 .f32)
    (e : IVec Cert.KernelIdeal.S2x1600000 32) :
    Cert.KernelIdeal.Boundary.result x0 x1 x2 x3 x4 e = Cert.ReferenceIdeal.Read.val_main_v64 (F := Ideal) x0 x1 x2 x3 x4 e := by
  rw [Cert.ReferenceIdeal.Layers.result_eq]
  unfold Cert.KernelIdeal.Boundary.result Cert.KernelIdeal.Boundary.hidden
  rw [Cert.Bridge.biasRelu64_eq, Cert.Bridge.product64_eq, Cert.Bridge.biasRelu128_eq, Cert.Bridge.product128_eq]

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both idealized programs end with the kernel's result function of the (agreeing) arguments in their result buffers. -/
theorem algebraic : Cert.algebraic_KernelIdeal_ReferenceIdeal := by
  intro m ρ m' ρ' _ hagree
  refine ⟨fun c => Cert.KernelIdeal.Boundary.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Boundary.W7_result m ρ c), (h c).2⟩)
      (Cert.KernelIdeal.ResultRun.run (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v64_eq, (hagree c).1, (hagree c).2.1, (hagree c).2.2.1, (hagree c).2.2.2.1,
      (hagree c).2.2.2.2.1, (hagree c).2.2.2.2.2]
    exact (result_eq _ _ _ _ _ _).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
